-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S8x3 : Shape := ⟨2, ![8, 3]⟩
abbrev S2048x8 : Shape := ⟨2, ![2048, 8]⟩
abbrev S2048 : Shape := ⟨1, ![2048]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S8x3 : S_.BroadcastsInDim S8x3 (![] : Fin 0 → Fin S8x3.rank)
  reducesTo_S8x3_S_d0_1 : S8x3.ReducesTo [0, 1] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16x4096x512 .f32) (main_arg1 : FVec F S8x3 .f32) (main_arg2 : FVec F S2048x8 .f32) (main_arg3 : FVec F S2048 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16x4096x512 : Shape := ⟨3, ![16, 4096, 512]⟩
abbrev S8x3 : Shape := ⟨2, ![8, 3]⟩
abbrev S2048x8 : Shape := ⟨2, ![2048, 8]⟩
abbrev S2048 : Shape := ⟨1, ![2048]⟩
abbrev S65536x512 : Shape := ⟨2, ![65536, 512]⟩
abbrev S8x2048 : Shape := ⟨2, ![8, 2048]⟩
abbrev S1x2048 : Shape := ⟨2, ![1, 2048]⟩
abbrev S65536x2048 : Shape := ⟨2, ![65536, 2048]⟩
abbrev S512x128 : Shape := ⟨2, ![512, 128]⟩
abbrev S512x2048 : Shape := ⟨2, ![512, 2048]⟩
abbrev S512x8 : Shape := ⟨2, ![512, 8]⟩
abbrev S8x1 : Shape := ⟨2, ![8, 1]⟩
abbrev S8 : Shape := ⟨1, ![8]⟩
abbrev S1x8 : Shape := ⟨2, ![1, 8]⟩
abbrev S16x4096x2048 : Shape := ⟨3, ![16, 4096, 2048]⟩

abbrev nBuf : Space → Nat
  | .hbm => 9
  | .vmem => 7
  | .smem => 0
  | _ => 0

abbrev bufTy : (tb : Table) → Fin (tcTables nBuf tb) → BufTy
  | .hbm, ⟨0, _⟩ => ⟨S16x4096x512, .f32⟩
  | .hbm, ⟨1, _⟩ => ⟨S8x3, .f32⟩
  | .hbm, ⟨2, _⟩ => ⟨S2048x8, .f32⟩
  | .hbm, ⟨3, _⟩ => ⟨S2048, .f32⟩
  | .hbm, ⟨4, _⟩ => ⟨S65536x512, .f32⟩
  | .hbm, ⟨5, _⟩ => ⟨S8x2048, .f32⟩
  | .hbm, ⟨6, _⟩ => ⟨S1x2048, .f32⟩
  | .hbm, ⟨7, _⟩ => ⟨S65536x2048, .f32⟩
  | .hbm, ⟨8, _⟩ => ⟨S16x4096x2048, .f32⟩
  | .local _ .vmem, ⟨0, _⟩ => ⟨S512x128, .f32⟩
  | .local _ .vmem, ⟨1, _⟩ => ⟨S512x128, .f32⟩
  | .local _ .vmem, ⟨2, _⟩ => ⟨S8x3, .f32⟩
  | .local _ .vmem, ⟨3, _⟩ => ⟨S8x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x512_S65536x512 : S16x4096x512.ShapeCasts S65536x512
  transposes_S2048x8_S8x2048_1_0 : S2048x8.Transposes [1, 0] S8x2048
  shapeCasts_S2048_S1x2048 : S2048.ShapeCasts S1x2048
  inb_S512x128_S512x8_0_0 : ∀ a, (![0, 0] : Fin 2 → Nat) a + S512x8.size a ≤ S512x128.size a
  h_S512x8 : 0 < S512x8.numel
  shapeCasts_S512x8_S512x8 : S512x8.ShapeCasts S512x8
  inb_S8x3_S8x1_0_0 : ∀ a, (![0, 0] : Fin 2 → Nat) a + S8x1.size a ≤ S8x3.size a
  h_S8x1 : 0 < S8x1.numel
  shapeCasts_S8x1_S8 : S8x1.ShapeCasts S8
  shapeCasts_S8_S1x8 : S8.ShapeCasts S1x8
  broadcasts_S1x8_S512x8 : S1x8.Broadcasts S512x8
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S65536x2048_S16x4096x2048 : S65536x2048.ShapeCasts S16x4096x2048
  dot_S512x8_S8x2048_S512x2048_1_0_0_1_n_n_wf : DotDims.WF S512x8 S8x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x512.size a
  hwx0_0 : ∀ i : grid0.Coords, EltTy.bits .f32 = 32 ∨ (Rect.block (s := S65536x512) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .f32 = 32 ∨ (Rect.block (s := S8x3) S8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .f32 = 32 ∨ (Rect.block (s := S8x2048) S8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S65536x2048.size a
  hwx0_4 : ∀ i : grid0.Coords, EltTy.bits .f32 = 32 ∨ (Rect.block (s := S65536x2048) S512x2048.size (cc0_transform_4 i) (hinb0_4 i)).WholeWords (EltTy.packing .f32)

variable [Facts₀]

def dot_S512x8_S8x2048_S512x2048_1_0_0_1_n_n : DotDims S512x8 S8x2048 S512x2048 where
  lhsContracting := [1]
  rhsContracting := [0]
  lhsNonContracting := [0]
  rhsNonContracting := [1]
  lhsBatch := []
  rhsBatch := []
  wf := dot_S512x8_S8x2048_S512x2048_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S8x3 : Shape := ⟨2, ![8, 3]⟩
abbrev S2048x8 : Shape := ⟨2, ![2048, 8]⟩
abbrev S2048 : Shape := ⟨1, ![2048]⟩
abbrev S8 : Shape := ⟨1, ![8]⟩
abbrev S_ : Shape := ⟨0, ![]⟩
abbrev S8x1 : Shape := ⟨2, ![8, 1]⟩
abbrev S16x4096x8 : Shape := ⟨3, ![16, 4096, 8]⟩
abbrev S1x1x8 : Shape := ⟨3, ![1, 1, 8]⟩
abbrev S16x4096x2048 : Shape := ⟨3, ![16, 4096, 2048]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S8x3, .f32⟩
  | .hbm, ⟨2, _⟩ => ⟨S2048x8, .f32⟩
  | .hbm, ⟨3, _⟩ => ⟨S2048, .f32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S_, .i32⟩
  | .hbm, ⟨20, _⟩ => ⟨S_, .i1⟩
  | .hbm, ⟨21, _⟩ => ⟨S8, .i1⟩
  | .hbm, ⟨22, _⟩ => ⟨S8, .i1⟩
  | .hbm, ⟨23, _⟩ => ⟨S8, .i1⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S16x4096x8, .f32⟩
  | .hbm, ⟨36, _⟩ => ⟨S16x4096x8, .f32⟩
  | .hbm, ⟨37, _⟩ => ⟨S8x1, .f32⟩
  | .hbm, ⟨38, _⟩ => ⟨S8, .f32⟩
  | .hbm, ⟨39, _⟩ => ⟨S8, .f32⟩
  | .hbm, ⟨40, _⟩ => ⟨S1x1x8, .f32⟩
  | .hbm, ⟨41, _⟩ => ⟨S16x4096x8, .f32⟩
  | .hbm, ⟨42, _⟩ => ⟨S16x4096x8, .f32⟩
  | .hbm, ⟨43, _⟩ => ⟨S16x4096x2048, .f32⟩
  | .hbm, ⟨44, _⟩ => ⟨S1x1x2048, .f32⟩
  | .hbm, ⟨45, _⟩ => ⟨S16x4096x2048, .f32⟩
  | .hbm, ⟨46, _⟩ => ⟨S16x4096x2048, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  slices_S8x3_S8x1_0_0 : S8x3.Slices ![0, 0] S8x1
  shapeCasts_S8x1_S8 : S8x1.ShapeCasts S8
  bcast_S8_S1x1x8_2 : S8.BroadcastsInDim S1x1x8 (![2] : Fin 1 → Fin S1x1x8.rank)
  bcast_S1x1x8_S16x4096x8_0_1_2 : S1x1x8.BroadcastsInDim S16x4096x8 (![0, 1, 2] : Fin 3 → Fin S16x4096x8.rank)
  bcast_S2048_S1x1x2048_2 : S2048.BroadcastsInDim S1x1x2048 (![2] : Fin 1 → Fin S1x1x2048.rank)
  bcast_S1x1x2048_S16x4096x2048_0_1_2 : S1x1x2048.BroadcastsInDim S16x4096x2048 (![0, 1, 2] : Fin 3 → Fin S16x4096x2048.rank)
  gather_S16x4096x512_S8x1_S16x4096x8_01_2_n_n_2_1_1640961_wf : GatherDims.WF S16x4096x512 S8x1 S16x4096x8 [0, 1] [2] [] [2] [] 1 ![16, 4096, 1]
  dot_S16x4096x8_S2048x8_S16x4096x2048_2_1_01_0_n_n_wf : DotDims.WF S16x4096x8 S2048x8 S16x4096x2048 [2] [1] [0, 1] [0] [] []

variable [Facts₀]

def gather_S16x4096x512_S8x1_S16x4096x8_01_2_n_n_2_1_1640961 : GatherDims S16x4096x512 S8x1 S16x4096x8 where
  offsetDims := [0, 1]
  collapsedSliceDims := [2]
  operandBatchingDims := []
  startIndicesBatchingDims := []
  startIndexMap := [2]
  indexVectorDim := 1
  sliceSizes := ![16, 4096, 1]
  wf := gather_S16x4096x512_S8x1_S16x4096x8_01_2_n_n_2_1_1640961_wf
def dot_S16x4096x8_S2048x8_S16x4096x2048_2_1_01_0_n_n : DotDims S16x4096x8 S2048x8 S16x4096x2048 where
  lhsContracting := [2]
  rhsContracting := [1]
  lhsNonContracting := [0, 1]
  rhsNonContracting := [0]
  lhsBatch := []
  rhsBatch := []
  wf := dot_S16x4096x8_S2048x8_S16x4096x2048_2_1_01_0_n_n_wf

class Facts : Prop extends Facts₀ where

variable [Facts]
-- ==== Proof.Spec.lean ====
/-
  The function both programs compute, on the extended reals.

  For a token (b, s) and an output feature f,

      out[b, s, f] = Σ_{q < 8} (cos x[b, s, q] · cos params[q, 0]) · W[f, q] + bias[f].

  Only the first eight features of a token enter (the index vector `arange 8 mod 512` is `0 … 7`), the rotation
  angle of qubit q is column 0 of its parameter row, and the projection contracts the eight expectations with row f
  of the weight. The kernel sees the tokens flattened to one axis of 16·4096 rows, the weight transposed and the bias
  as a row; `entry` is the one scalar formula, `whole` the result array over (b, s, f), and `rows` the same function
  over the flattened operands the kernel's region works on.
-/
import Idealize.ShloMosaic.PureOps.Ideal
import Idealize.ShloMosaic.Lib.ValueIdx

noncomputable section

namespace Cert.Spec

open Idealize.ShloMosaic Idealize.ShloMosaic.ValueIdx

/-- One output entry from the eight features `xs` of its token, the eight rotation angles `ps`, the eight weights `ws`
    of its output feature and that feature's bias: the expectations `cos x · cos p` contracted with the weights, plus
    the bias. -/
def entry (xs ps ws : Fin 8 → EReal) (bias : EReal) : EReal :=
  (∑ k : Fin 8, (Ideal.cos (xs k) * Ideal.cos (ps k)) * ws k) + bias

/-- Feature `k < 8` as a position on the 512-wide feature axis. -/
abbrev col (k : Fin 8) : Fin 512 := ⟨k.val, by have := k.isLt; omega⟩

/-- The result array over (b, s, f). -/
def whole (x : FVec Ideal ⟨3, ![16, 4096, 512]⟩ .f32) (p : FVec Ideal ⟨2, ![8, 3]⟩ .f32)
    (W : FVec Ideal ⟨2, ![2048, 8]⟩ .f32) (b : FVec Ideal ⟨1, ![2048]⟩ .f32) :
    FVec Ideal ⟨3, ![16, 4096, 2048]⟩ .f32 :=
  fun i => entry (fun k => x (ix3 (i 0) (i 1) (col k))) (fun k => p (ix2 k (0 : Fin 3)))
    (fun k => W (ix2 (i 2) k)) (b (ix1 (i 2)))

/-- The same function over the flattened tokens `X` (row r = 4096·b + s), the transposed weight `Wt` and the bias as
    a row `b2`. -/
def rows (X : FVec Ideal ⟨2, ![65536, 512]⟩ .f32) (p : FVec Ideal ⟨2, ![8, 3]⟩ .f32)
    (Wt : FVec Ideal ⟨2, ![8, 2048]⟩ .f32) (b2 : FVec Ideal ⟨2, ![1, 2048]⟩ .f32) :
    FVec Ideal ⟨2, ![65536, 2048]⟩ .f32 :=
  fun j => entry (fun k => X (ix2 (j 0) (col k))) (fun k => p (ix2 k (0 : Fin 3)))
    (fun k => Wt (ix2 k (j 1))) (b2 (ix2 (0 : Fin 1) (j 1)))

end Cert.Spec

end
-- ==== Proof.KernelPayload.lean ====
/-
  What the kernel body stores, read at one entry of its 512 × 2048 block.

  The body loads the first eight columns of its 512 × 128 token block, column 0 of the parameter block, the whole
  transposed weight and the bias row; it forms cos x · cos p, narrows both matmul operands to bf16 (the identity on the
  extended reals), multiplies into a zero accumulator and adds the bias row. At (r, f) that is the contraction
  Σ_k (cos x[r, k] · cos p[k, 0]) · Wt[k, f] plus bias[0, f]: `Cert.Spec.entry` of the loaded pieces.
-/
import proofs.«148465_j65481071406287_1_alg».proof.Proof.Gen.KernelIdeal.Skeleton
import proofs.«148465_j65481071406287_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The matmul's record under a short name. -/
abbrev dotD := dot_S512x8_S8x2048_S512x2048_1_0_0_1_n_n

/-- The contraction index of the matmul is its one coordinate `k < 8`. -/
abbrev kIdx (k : Fin 8) : dotD.contr.Idx := (contrEquiv1 dotD 8 rfl rfl).symm k

theorem lhs_0 (j : S512x2048.Idx) (k : dotD.contr.Idx) : ((dotD.lhsIdx j k) 0).val = (j 0).val := rfl
theorem lhs_1 (j : S512x2048.Idx) (k : dotD.contr.Idx) : ((dotD.lhsIdx j k) 1).val = (k ⟨0, by decide⟩).val := rfl
theorem rhs_0 (j : S512x2048.Idx) (k : dotD.contr.Idx) : ((dotD.rhsIdx j k) 0).val = (k ⟨0, by decide⟩).val := rfl
theorem rhs_1 (j : S512x2048.Idx) (k : dotD.contr.Idx) : ((dotD.rhsIdx j k) 1).val = (j 1).val := rfl

/-- At output (r, f) and contraction coordinate k the left operand is read at (r, k), -/
theorem lhsIdx_eq (r : Fin 512) (f : Fin 2048) (k : Fin 8) : dotD.lhsIdx (ix2 r f) (kIdx k) = ix2 r k :=
  Shape.idx_ext₂ (lhs_0 _ _) ((lhs_1 _ _).trans (contrEquiv1_symm_val dotD 8 rfl rfl k))

/-- and the right operand at (k, f). -/
theorem rhsIdx_eq (r : Fin 512) (f : Fin 2048) (k : Fin 8) : dotD.rhsIdx (ix2 r f) (kIdx k) = ix2 k f :=
  Shape.idx_ext₂ ((rhs_0 _ _).trans (contrEquiv1_symm_val dotD 8 rfl rfl k)) (rhs_1 _ _)

/-- The cosines of the rotation angles, laid along every row: at (r, k) the cosine of parameter (k, 0). -/
theorem angles_apply (v2 : FVec Ideal S8x1 .f32) (r : Fin 512) (k : Fin 8) :
    broadcastTo S512x8 (shapeCast S1x8 (cos (F := Ideal) (φ := .f32) (shapeCast S8 v2 shapeCasts_S8x1_S8)) shapeCasts_S8_S1x8) broadcasts_S1x8_S512x8 (ix2 r k)
      = Ideal.cos (v2 (ix2 k (0 : Fin 1))) := by
  refine (broadcastTo_apply _ _ (ix2 r k) (ix2 (0 : Fin 1) k) (fun a => ?_)).trans ?_
  · match a with
    | ⟨0, _⟩ => rfl
    | ⟨1, _⟩ => rfl
  refine (shapeCast_apply _ _ (ix2 (0 : Fin 1) k) (ix1 k) ?_).trans ?_
  · rw [Shape.rowMajor_val_one, Shape.rowMajor_val_two]
    show k.val = 0 * 8 + k.val
    omega
  show Ideal.cos (shapeCast S8 v2 shapeCasts_S8x1_S8 (ix1 k)) = _
  refine congrArg Ideal.cos (shapeCast_apply _ _ (ix1 k) (ix2 k (0 : Fin 1)) ?_)
  rw [Shape.rowMajor_val_one, Shape.rowMajor_val_two]
  show k.val * 1 + 0 = k.val
  omega

/-- The bias row laid along every row: at (r, f) the bias of feature f. -/
theorem bias_apply (v14 : FVec Ideal S1x2048 .f32) (r : Fin 512) (f : Fin 2048) :
    broadcastTo S512x2048 (shapeCast S1x2048 v14 shapeCasts_S1x2048_S1x2048) broadcasts_S1x2048_S512x2048 (ix2 r f)
      = v14 (ix2 (0 : Fin 1) f) := by
  rw [shapeCast_self]
  refine broadcastTo_apply _ _ (ix2 r f) (ix2 (0 : Fin 1) f) (fun a => ?_)
  match a with
  | ⟨0, _⟩ => rfl
  | ⟨1, _⟩ => rfl

/-- The stored value at (r, f). -/
theorem pay_apply (v0 : Vec Ideal S512x8 .f32) (v2 : Vec Ideal S8x1 .f32) (v10 : Vec Ideal S8x2048 .f32)
    (v14 : Vec Ideal S1x2048 .f32) (r : Fin 512) (f : Fin 2048) :
    k0_pay1 (F := Ideal) v0 v2 v10 v14 (ix2 r f)
      = Cert.Spec.entry (fun k => v0 (ix2 r k)) (fun k => v2 (ix2 k (0 : Fin 1))) (fun k => v10 (ix2 k f))
          (v14 (ix2 (0 : Fin 1) f)) := by
  unfold k0_pay1 Cert.Spec.entry
  rw [addf_apply, bias_apply]
  congr 1
  refine (Ideal.matmul_constant_zero_apply dotD none _ _ (ix2 r f)).trans ?_
  refine (Equiv.sum_comp (contrEquiv1 dotD 8 rfl rfl).symm _).symm.trans ?_
  refine Finset.sum_congr rfl fun k _ => ?_
  show _ * _ = _
  rw [lhsIdx_eq, rhsIdx_eq, truncf_apply, truncf_apply, mulf_apply, angles_apply, shapeCast_self, shapeCast_self]
  rfl

end Cert.KernelIdeal.Hand

end
-- ==== Proof.Flatten.lean ====
/-
  Flattening the tokens changes nothing. The kernel's program reshapes x from (16, 4096, 512) to (65536, 512) — row
  r = 4096·b + s —, transposes the weight, views the bias as a row, computes `Cert.Spec.rows` over those and reshapes
  the (65536, 2048) result back to (16, 4096, 2048). Entry (b, s, f) of that is entry (4096·b + s, f) of the flat result,
  which reads x at row 4096·b + s, that is at token (b, s); the transposed weight at (k, f), that is the weight at
  (f, k); and the bias row at (0, f), that is the bias at f: `Cert.Spec.whole`.
-/
import proofs.«148465_j65481071406287_1_alg».proof.Proof.Spec
import Idealize.ShloMosaic.Lib.ValueIdx
import Idealize.ShloMosaic.Lib.Pipeline.Value

noncomputable section

namespace Cert.Spec

open Idealize.ShloMosaic Idealize.ShloMosaic.ValueIdx

abbrev T3x : Shape := ⟨3, ![16, 4096, 512]⟩
abbrev T2x : Shape := ⟨2, ![65536, 512]⟩
abbrev Tw : Shape := ⟨2, ![2048, 8]⟩
abbrev Twt : Shape := ⟨2, ![8, 2048]⟩
abbrev Tb : Shape := ⟨1, ![2048]⟩
abbrev Tb2 : Shape := ⟨2, ![1, 2048]⟩
abbrev T2o : Shape := ⟨2, ![65536, 2048]⟩
abbrev T3o : Shape := ⟨3, ![16, 4096, 2048]⟩

/-- Token (b, s) as a row of the flattened array. -/
abbrev flatRow (b : Fin 16) (s : Fin 4096) : Fin 65536 := ⟨b.val * 4096 + s.val, by have := b.isLt; have := s.isLt; omega⟩

/-- The flattened tokens at (4096·b + s, q) are the tokens at (b, s, q). -/
theorem flat_x (x : FVec Ideal T3x .f32) (h : T3x.ShapeCasts T2x) (b : Fin 16) (s : Fin 4096) (q : Fin 512) :
    shapeCast T2x x h (ix2 (flatRow b s) q) = x (ix3 b s q) := by
  refine shapeCast_apply _ _ _ _ ?_
  rw [Shape.rowMajor_val_three, Shape.rowMajor_val_two]
  show (b.val * 4096 + s.val) * 512 + q.val = (b.val * 4096 + s.val) * 512 + q.val
  rfl

/-- The transposed weight at (k, f) is the weight at (f, k). -/
theorem flat_w (W : FVec Ideal Tw .f32) (h : Tw.Transposes [1, 0] Twt) (k : Fin 8) (f : Fin 2048) :
    transpose Twt [1, 0] W h (ix2 k f) = W (ix2 f k) := by
  refine transpose_apply _ _ _ _ _ (fun a => ?_)
  match a with
  | ⟨0, _⟩ => rfl
  | ⟨1, _⟩ => rfl

/-- The bias as a row, at (0, f), is the bias at f. -/
theorem flat_b (b : FVec Ideal Tb .f32) (h : Tb.ShapeCasts Tb2) (f : Fin 2048) :
    shapeCast Tb2 b h (ix2 (0 : Fin 1) f) = b (ix1 f) := by
  refine shapeCast_apply _ _ _ _ ?_
  rw [Shape.rowMajor_val_one, Shape.rowMajor_val_two]
  show f.val = 0 * 2048 + f.val
  omega

/-- The flat result reshaped back is the result over (b, s, f). -/
theorem rows_flat (x : FVec Ideal T3x .f32) (p : FVec Ideal ⟨2, ![8, 3]⟩ .f32) (W : FVec Ideal Tw .f32) (b : FVec Ideal Tb .f32)
    (h1 : T3x.ShapeCasts T2x) (h2 : Tw.Transposes [1, 0] Twt) (h3 : Tb.ShapeCasts Tb2) (h4 : T2o.ShapeCasts T3o) :
    shapeCast T3o (rows (shapeCast T2x x h1) p (transpose Twt [1, 0] W h2) (shapeCast Tb2 b h3)) h4 = whole x p W b := by
  funext i
  obtain ⟨bb, s, f, rfl⟩ : ∃ (bb : Fin 16) (s : Fin 4096) (f : Fin 2048), i = ix3 bb s f := ⟨i 0, i 1, i 2, eq_ix3 i⟩
  refine (shapeCast_apply _ h4 (ix3 bb s f) (ix2 (flatRow bb s) f) ?_).trans ?_
  · rw [Shape.rowMajor_val_three, Shape.rowMajor_val_two]
    show (bb.val * 4096 + s.val) * 2048 + f.val = (bb.val * 4096 + s.val) * 2048 + f.val
    rfl
  unfold rows whole
  show entry (fun k => shapeCast T2x x h1 (ix2 (flatRow bb s) (col k))) (fun k => p (ix2 k (0 : Fin 3)))
      (fun k => transpose Twt [1, 0] W h2 (ix2 k f)) (shapeCast Tb2 b h3 (ix2 (0 : Fin 1) f))
    = entry (fun k => x (ix3 bb s (col k))) (fun k => p (ix2 k (0 : Fin 3))) (fun k => W (ix2 f k)) (b (ix1 f))
  have ew : (fun k : Fin 8 => transpose Twt [1, 0] W h2 (ix2 k f)) = fun k => W (ix2 f k) := funext fun k => flat_w W h2 k f
  simp only [flat_x, flat_b]
  rw [ew]

end Cert.Spec

end
-- ==== Proof.KernelValue.lean ====
/-
  What the kernel's program leaves in its result.

  The region's grid has 128 points; point t stages rows 512·t … 512·t + 511 of the flattened tokens (their first 128
  columns), the whole parameter table, the whole transposed weight and the bias row, and writes back rows
  512·t … 512·t + 511 of the (65536, 2048) output. By the payload lemma the block it writes is `Cert.Spec.rows` of the
  arrays the region finds, read at those rows; the 128 blocks tile the output, so after the run the output array IS
  `Cert.Spec.rows` of those arrays. The arrays the region finds are the program's host operations before it applied to
  the arguments (a reshape, a transpose, a reshape), and the one host operation after it reshapes the output to
  (16, 4096, 2048): with `Cert.Spec.rows_flat` the result is `Cert.Spec.whole` of the arguments.
-/
import proofs.«148465_j65481071406287_1_alg».proof.Proof.Gen.KernelIdeal.Frame
import proofs.«148465_j65481071406287_1_alg».proof.Proof.KernelPayload
import proofs.«148465_j65481071406287_1_alg».proof.Proof.Flatten
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the token block and the output block move with the point along the rows; the
    parameter table, the weight and the bias stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The staged blocks as entries of the arrays the region finds -/

/-- The token block of point t at (r, q) is the flattened tokens at (512·t + r, q). -/
theorem token_block (c : Dev nD) (t : Fin cfg0.N) (x : S512x128.Idx) (k : S65536x512.Idx)
    (hk0 : (k 0).val = t.val * 512 + (x 0).val) (hk1 : (k 1).val = (x 1).val) :
    (iblk m c 0 t : Vec Ideal S512x128 .f32) x = (V m c main_v0 : S65536x512.Idx → Elt Ideal .f32) k := by
  obtain ⟨h0, h1, -⟩ := block_indices t
  unfold iblk
  rw [View.read_apply]
  show V m c main_v0 _ = V m c main_v0 _
  congr 1
  funext a
  apply Fin.ext
  match a with
  | ⟨0, _⟩ => show win0_0.index t 0 * 512 + 1 * (x 0).val = (k 0).val; rw [h0, hk0]; omega
  | ⟨1, _⟩ => show win0_0.index t 1 * 128 + 1 * (x 1).val = (k 1).val; rw [h1, hk1]; omega

/-- The parameter block of any point is the parameter table. -/
theorem param_block (c : Dev nD) (t : Fin cfg0.N) (x : S8x3.Idx) :
    (iblk m c 1 t : Vec Ideal S8x3 .f32) x = (V m c main_arg1 : S8x3.Idx → Elt Ideal .f32) x := by
  obtain ⟨-, -, h0, h1, -⟩ := block_indices t
  unfold iblk
  rw [View.read_apply]
  show V m c main_arg1 _ = V m c main_arg1 _
  congr 1
  funext a
  apply Fin.ext
  match a with
  | ⟨0, _⟩ => show win0_1.index t 0 * 8 + 1 * (x 0).val = (x 0).val; rw [h0]; omega
  | ⟨1, _⟩ => show win0_1.index t 1 * 3 + 1 * (x 1).val = (x 1).val; rw [h1]; omega

/-- The weight block of any point is the transposed weight. -/
theorem weight_block (c : Dev nD) (t : Fin cfg0.N) (x : S8x2048.Idx) :
    (iblk m c 2 t : Vec Ideal S8x2048 .f32) x = (V m c main_v1 : S8x2048.Idx → Elt Ideal .f32) x := by
  obtain ⟨-, -, -, -, h0, h1, -⟩ := block_indices t
  unfold iblk
  rw [View.read_apply]
  show V m c main_v1 _ = V m c main_v1 _
  congr 1
  funext a
  apply Fin.ext
  match a with
  | ⟨0, _⟩ => show win0_2.index t 0 * 8 + 1 * (x 0).val = (x 0).val; rw [h0]; omega
  | ⟨1, _⟩ => show win0_2.index t 1 * 2048 + 1 * (x 1).val = (x 1).val; rw [h1]; omega

/-- The bias block of any point is the bias row. -/
theorem bias_block (c : Dev nD) (t : Fin cfg0.N) (x : S1x2048.Idx) :
    (iblk m c 3 t : Vec Ideal S1x2048 .f32) x = (V m c main_v2 : S1x2048.Idx → Elt Ideal .f32) x := by
  obtain ⟨-, -, -, -, -, -, h0, h1, -⟩ := block_indices t
  unfold iblk
  rw [View.read_apply]
  show V m c main_v2 _ = V m c main_v2 _
  congr 1
  funext a
  apply Fin.ext
  match a with
  | ⟨0, _⟩ => show win0_3.index t 0 * 1 + 1 * (x 0).val = (x 0).val; rw [h0]; omega
  | ⟨1, _⟩ => show win0_3.index t 1 * 2048 + 1 * (x 1).val = (x 1).val; rw [h1]; omega

/-! ## One point's block -/

/-- What point t stores at (r, f) of its block is `Cert.Spec.rows` of the arrays the region finds, at (512·t + r, f). -/
theorem stored_entry (c : Dev nD) (t : Fin cfg0.N) (r : Fin 512) (f : Fin 2048) (R : Fin 65536) (hR : R.val = t.val * 512 + r.val) :
    k0_pay1 (F := Ideal) (View.ld (iblk m c 0 t) r0_0) (View.ld (iblk m c 1 t) r0_1) (View.ld (iblk m c 2 t) r0_2)
        (View.ld (iblk m c 3 t) r0_3) (ix2 r f)
      = Cert.Spec.rows (V m c main_v0) (V m c main_arg1) (V m c main_v1) (V m c main_v2) (ix2 R f) := by
  rw [pay_apply]
  unfold Cert.Spec.rows
  have e0 : ∀ k : Fin 8, View.ld (iblk m c 0 t) r0_0 (ix2 r k) = (V m c main_v0 : S65536x512.Idx → Elt Ideal .f32) (ix2 R (Cert.Spec.col k)) :=
    fun k => token_block m c t _ _ (by show R.val = t.val * 512 + (0 + 1 * r.val); omega) (by show k.val = 0 + 1 * k.val; omega)
  have e1 : ∀ k : Fin 8, View.ld (iblk m c 1 t) r0_1 (ix2 k (0 : Fin 1)) = (V m c main_arg1 : S8x3.Idx → Elt Ideal .f32) (ix2 k (0 : Fin 3)) :=
    fun k => (param_block m c t _).trans (congrArg _ (Shape.idx_ext₂ (by show 0 + 1 * k.val = k.val; omega) rfl))
  have e2 : ∀ k : Fin 8, View.ld (iblk m c 2 t) r0_2 (ix2 k f) = (V m c main_v1 : S8x2048.Idx → Elt Ideal .f32) (ix2 k f) :=
    fun k => (weight_block m c t _).trans (congrArg _ (Shape.idx_ext₂ (by show 0 + 1 * k.val = k.val; omega) (by show 0 + 1 * f.val = f.val; omega)))
  have e3 : View.ld (iblk m c 3 t) r0_3 (ix2 (0 : Fin 1) f) = (V m c main_v2 : S1x2048.Idx → Elt Ideal .f32) (ix2 (0 : Fin 1) f) :=
    (bias_block m c t _).trans (congrArg _ (Shape.idx_ext₂ rfl (by show 0 + 1 * f.val = f.val; omega)))
  simp only [e0, e1, e2, e3]

/-- WHAT POINT t WRITES BACK is block t of `Cert.Spec.rows` of the arrays the region finds. -/
theorem written_block (c : Dev nD) (t : Fin cfg0.N) :
    (dats m 0 c).flushed 4 t = ((cfg0.win 4).blk t).view.read (Elt Ideal)
      (Cert.Spec.rows (V m c main_v0) (V m c main_arg1) (V m c main_v1) (V m c main_v2)) := by
  show (cfg0.win 4).cut (grid0.coords t) ((dats m 0 c).after 4 t) = _
  rw [after0_4]
  unfold out0_4
  rw [View.canon_unit_zero zero_offsets]
  obtain ⟨-, -, -, -, -, -, -, -, h0, h1⟩ := block_indices t
  funext y
  have hy0 : (y 0).val < 512 := (y 0).isLt
  have hy1 : (y 1).val < 2048 := (y 1).isLt
  have ht : t.val < 128 := by have h := t.isLt; have hN : cfg0.N = 128 := N_0; omega
  show k0_pay1 (F := Ideal) (View.ld (iblk m c 0 t) r0_0) (View.ld (iblk m c 1 t) r0_1) (View.ld (iblk m c 2 t) r0_2)
        (View.ld (iblk m c 3 t) r0_3) (ix2 ⟨(y 0).val, hy0⟩ ⟨(y 1).val, hy1⟩)
      = Cert.Spec.rows (V m c main_v0) (V m c main_arg1) (V m c main_v1) (V m c main_v2) (((cfg0.win 4).blk t).view.emb y)
  rw [stored_entry m c t ⟨(y 0).val, hy0⟩ ⟨(y 1).val, hy1⟩ ⟨t.val * 512 + (y 0).val, by omega⟩ rfl]
  congr 1
  funext a
  apply Fin.ext
  match a with
  | ⟨0, _⟩ => show t.val * 512 + (y 0).val = win0_4.index t 0 * 512 + 1 * (y 0).val; rw [h0]; omega
  | ⟨1, _⟩ => show (y 1).val = win0_4.index t 1 * 2048 + 1 * (y 1).val; rw [h1]; omega

/-! ## The blocks tile the output -/

theorem mem_row_block (t : Fin cfg0.N) (i : S65536x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v3).slice (win0_4.rect t)).set ↔ _
  rw [View.set_slice_whole, Rect.mem_set_unit]
  exact Iff.rfl

/-- Row R of the output is in the block of point R / 512. -/
theorem rows_tiled (i : S65536x2048.Idx) : ∃ t : Fin cfg0.N, (cfg0.win 4).flush t = true ∧ i ∈ ((cfg0.win 4).blk t).view.set := by
  have hi0 : (i 0).val < 65536 := (i 0).isLt
  have hi1 : (i 1).val < 2048 := (i 1).isLt
  have hN : cfg0.N = 128 := N_0
  let t : Fin cfg0.N := ⟨(i 0).val / 512, by rw [hN]; omega⟩
  obtain ⟨-, -, -, -, -, -, -, -, h0, h1⟩ := block_indices t
  refine ⟨t, flush0_4 t, ?_⟩
  rw [mem_row_block]
  intro a
  match a with
  | ⟨0, _⟩ =>
    show win0_4.index t 0 * 512 ≤ (i 0).val ∧ (i 0).val < win0_4.index t 0 * 512 + 512
    rw [h0]
    show (i 0).val / 512 * 512 ≤ (i 0).val ∧ (i 0).val < (i 0).val / 512 * 512 + 512
    omega
  | ⟨1, _⟩ =>
    show win0_4.index t 1 * 2048 ≤ (i 1).val ∧ (i 1).val < win0_4.index t 1 * 2048 + 2048
    rw [h1]
    omega

/-- THE OUTPUT ARRAY after the run. -/
theorem output_rows (c : Dev nD) :
    (dats m 0 c).arrAt 4 cfg0.N = Cert.Spec.rows (V m c main_v0) (V m c main_arg1) (V m c main_v1) (V m c main_v2) :=
  (dats m 0 c).arrAt_eq_of_cover 4 _ (fun t _ => written_block m c t) rows_tiled

end Cert.KernelIdeal.Hand

end
-- ==== Proof.KernelRun.lean ====
/-
  The kernel's program, run: its result buffer ends at `Cert.Spec.whole` of the arguments, the arguments unchanged.

  Before the region the program reshapes x to (65536, 512), transposes the weight to (8, 2048) and views the bias as a
  (1, 2048) row: these are the arrays the region finds. After the region one reshape takes the (65536, 2048) output to
  (16, 4096, 2048). The output is `Cert.Spec.rows` of the arrays found (the value module), so by `Cert.Spec.rows_flat`
  the result is `Cert.Spec.whole` of the arguments.
-/
import proofs.«148465_j65481071406287_1_alg».proof.Proof.KernelValue

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The flattened tokens. -/
theorem found_x (c : Dev nD) : (V m c main_v0 : S65536x512.Idx → Elt Ideal .f32)
    = shapeCast S65536x512 (m ((c : Thread nD τ).loc main_arg0)) shapeCasts_S16x4096x512_S65536x512 := by
  show StableHlo.after hostOps0 (fun b => m (c, b)) (Proc.devRef .tc main_v0) = _
  after_results
  rfl

/-- The transposed weight. -/
theorem found_w (c : Dev nD) : (V m c main_v1 : S8x2048.Idx → Elt Ideal .f32)
    = transpose S8x2048 [1, 0] (m ((c : Thread nD τ).loc main_arg2)) transposes_S2048x8_S8x2048_1_0 := by
  show StableHlo.after hostOps0 (fun b => m (c, b)) (Proc.devRef .tc main_v1) = _
  after_results

/-- The bias as a row. -/
theorem found_b (c : Dev nD) : (V m c main_v2 : S1x2048.Idx → Elt Ideal .f32)
    = shapeCast S1x2048 (m ((c : Thread nD τ).loc main_arg3)) shapeCasts_S2048_S1x2048 := by
  show StableHlo.after hostOps0 (fun b => m (c, b)) (Proc.devRef .tc main_v2) = _
  after_results
  rfl

/-! ## The result -/

/-- The result buffer after the reshape that follows the region. -/
theorem result_eq (c : Dev nD) :
    Pipeline.afterTail₀ cfgs (dats m) 0 (V0 m) [hostOps1] c main_v4
      = Cert.Spec.whole (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  rw [(Pipeline.withArrays_arr spec0 launch0.win.arr_inj c _ _ 4).trans (output_rows m c), found_x, found_w, found_b, V_main_arg1]
  exact Cert.Spec.rows_flat _ _ _ _ _ _ _ _

/-- THE RUN: every weakly fair execution terminates, the result at `Cert.Spec.whole` of the arguments, the arguments
    unchanged. -/
theorem run : θ_run defs (onTc (τ := τ) (main (F := Ideal))) ⟨m, fun _ => 0, ρ⟩ fun r => ∀ c : Dev nD,
      r.2.mem ((c.tc : Thread nD τ).loc main_v4)
        = Cert.Spec.whole (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Hand

end
-- ==== Proof.RefRun.lean ====
/-
  The reference, run. Its program is a straight line of host operations once the two helper functions it calls are
  read at their call sites: `arange 8 mod 512` (the remainder's sign correction and the choice of a non-zero divisor
  included), the wrap of negative positions, the gather of those eight feature columns, the two cosines and their
  product, the contraction with the weight and the bias added. Every weakly fair execution terminates with each
  buffer at the fold of these operations over the launch contents.
-/
import proofs.«148465_j65481071406287_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations in order: two of its own, the remainder function's twenty-one (the one select of the
    function it calls among them), then twenty of its own. -/
abbrev ops : List (HloOp τ sig (Elt F)) :=
  [
    nullary main_v0 (iotaInDim S8 32 0),
    nullary main_c (constantI S_ 32 512#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8 ![] bcast_S_S8),
    TRef.binary (.of main_v0) main_call0.v3 main_call0.v4 Host.remsi,
    TRef.nullary main_call0.c_1 (constantI S_ 32 0#32),
    TRef.unary main_call0.c_1 main_call0.v5 (broadcastInDim S8 ![] bcast_S_S8),
    TRef.binary main_call0.v4 main_call0.v5 main_call0.v6 (cmpi .ne),
    TRef.nullary main_call0.c_2 (constantI S_ 32 0#32),
    TRef.unary main_call0.c_2 main_call0.v7 (broadcastInDim S8 ![] bcast_S_S8),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8 ![] bcast_S_S8),
    TRef.binary main_call0.v8 main_call0.v10 main_call0.v11 (cmpi .ne),
    TRef.binary main_call0.v11 main_call0.v6 main_call0.v12 andi,
    TRef.unary main_call0.call0.v0 main_call0.v13 (broadcastInDim S8 ![] bcast_S_S8),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S8 ![] bcast_S_S8 : (⟨S_, .i32⟩ : BufTy).Contents (Elt F) → (⟨S8, .i32⟩ : BufTy).Contents (Elt F)),
    binary main_v1 main_v2 main_v3 (cmpi .slt : (⟨S8, .i32⟩ : BufTy).Contents (Elt F) → (⟨S8, .i32⟩ : BufTy).Contents (Elt F) → (⟨S8, .i1⟩ : BufTy).Contents (Elt F)),
    nullary main_c_1 (constantI S_ 32 512#32),
    unary main_c_1 main_v4 (broadcastInDim S8 ![] bcast_S_S8 : (⟨S_, .i32⟩ : BufTy).Contents (Elt F) → (⟨S8, .i32⟩ : BufTy).Contents (Elt F)),
    binary main_v1 main_v4 main_v5 (addi : (⟨S8, .i32⟩ : BufTy).Contents (Elt F) → (⟨S8, .i32⟩ : BufTy).Contents (Elt F) → (⟨S8, .i32⟩ : BufTy).Contents (Elt F)),
    ternary main_v3 main_v5 main_v1 main_v6 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v6 main_v7 (broadcastInDim S8x1 ![0] bcast_S8_S8x1_0 : (⟨S8, .i32⟩ : BufTy).Contents (Elt F) → (⟨S8x1, .i32⟩ : BufTy).Contents (Elt F)),
    binary main_arg0 main_v7 main_v8 ((fun x i => Host.gather gather_S16x4096x512_S8x1_S16x4096x8_01_2_n_n_2_1_1640961 x i) : (⟨S16x4096x512, .f32⟩ : BufTy).Contents (Elt F) → (⟨S8x1, .i32⟩ : BufTy).Contents (Elt F) → (⟨S16x4096x8, .f32⟩ : BufTy).Contents (Elt F)),
    unary main_v8 main_v9 (Host.cos : (⟨S16x4096x8, .f32⟩ : BufTy).Contents (Elt F) → (⟨S16x4096x8, .f32⟩ : BufTy).Contents (Elt F)),
    unary main_arg1 main_v10 ((extractStridedSlice S8x1 ![0, 0] · slices_S8x3_S8x1_0_0) : (⟨S8x3, .f32⟩ : BufTy).Contents (Elt F) → (⟨S8x1, .f32⟩ : BufTy).Contents (Elt F)),
    reshape main_v10 main_v11 rfl shapeCasts_S8x1_S8,
    unary main_v11 main_v12 (Host.cos : (⟨S8, .f32⟩ : BufTy).Contents (Elt F) → (⟨S8, .f32⟩ : BufTy).Contents (Elt F)),
    unary main_v12 main_v13 (broadcastInDim S1x1x8 ![2] bcast_S8_S1x1x8_2 : (⟨S8, .f32⟩ : BufTy).Contents (Elt F) → (⟨S1x1x8, .f32⟩ : BufTy).Contents (Elt F)),
    unary main_v13 main_v14 (broadcastInDim S16x4096x8 ![0, 1, 2] bcast_S1x1x8_S16x4096x8_0_1_2 : (⟨S1x1x8, .f32⟩ : BufTy).Contents (Elt F) → (⟨S16x4096x8, .f32⟩ : BufTy).Contents (Elt F)),
    binary main_v9 main_v14 main_v15 (mulf : (⟨S16x4096x8, .f32⟩ : BufTy).Contents (Elt F) → (⟨S16x4096x8, .f32⟩ : BufTy).Contents (Elt F) → (⟨S16x4096x8, .f32⟩ : BufTy).Contents (Elt F)),
    binary main_v15 main_arg2 main_v16 ((fun l r => Host.dotGeneral dot_S16x4096x8_S2048x8_S16x4096x2048_2_1_01_0_n_n none l r) : (⟨S16x4096x8, .f32⟩ : BufTy).Contents (Elt F) → (⟨S2048x8, .f32⟩ : BufTy).Contents (Elt F) → (⟨S16x4096x2048, .f32⟩ : BufTy).Contents (Elt F)),
    unary main_arg3 main_v17 (broadcastInDim S1x1x2048 ![2] bcast_S2048_S1x1x2048_2 : (⟨S2048, .f32⟩ : BufTy).Contents (Elt F) → (⟨S1x1x2048, .f32⟩ : BufTy).Contents (Elt F)),
    unary main_v17 main_v18 (broadcastInDim S16x4096x2048 ![0, 1, 2] bcast_S1x1x2048_S16x4096x2048_0_1_2 : (⟨S1x1x2048, .f32⟩ : BufTy).Contents (Elt F) → (⟨S16x4096x2048, .f32⟩ : BufTy).Contents (Elt F)),
    binary main_v16 main_v18 main_v19 (addf : (⟨S16x4096x2048, .f32⟩ : BufTy).Contents (Elt F) → (⟨S16x4096x2048, .f32⟩ : BufTy).Contents (Elt F) → (⟨S16x4096x2048, .f32⟩ : BufTy).Contents (Elt F)) ]

set_option maxRecDepth 4096 in
/-- The program is that straight line: the called functions unfolded at their calls, the sequencing reassociated. -/
theorem main_eq (c : Dev nD) : main (F := F) c = seq ops := by
  simp only [main, fn_remainder.body, fn_where.body, seq, bind_assoc, pure_bind]

/-- The first thirty-one operations: the integer chain that ends in the column of start positions (`main_v7`). -/
def opsIdx : List (HloOp τ sig (Elt F)) :=
  [
    nullary main_v0 (iotaInDim S8 32 0),
    nullary main_c (constantI S_ 32 512#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8 ![] bcast_S_S8),
    TRef.binary (.of main_v0) main_call0.v3 main_call0.v4 Host.remsi,
    TRef.nullary main_call0.c_1 (constantI S_ 32 0#32),
    TRef.unary main_call0.c_1 main_call0.v5 (broadcastInDim S8 ![] bcast_S_S8),
    TRef.binary main_call0.v4 main_call0.v5 main_call0.v6 (cmpi .ne),
    TRef.nullary main_call0.c_2 (constantI S_ 32 0#32),
    TRef.unary main_call0.c_2 main_call0.v7 (broadcastInDim S8 ![] bcast_S_S8),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8 ![] bcast_S_S8),
    TRef.binary main_call0.v8 main_call0.v10 main_call0.v11 (cmpi .ne),
    TRef.binary main_call0.v11 main_call0.v6 main_call0.v12 andi,
    TRef.unary main_call0.call0.v0 main_call0.v13 (broadcastInDim S8 ![] bcast_S_S8),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S8 ![] bcast_S_S8 : (⟨S_, .i32⟩ : BufTy).Contents (Elt F) → (⟨S8, .i32⟩ : BufTy).Contents (Elt F)),
    binary main_v1 main_v2 main_v3 (cmpi .slt : (⟨S8, .i32⟩ : BufTy).Contents (Elt F) → (⟨S8, .i32⟩ : BufTy).Contents (Elt F) → (⟨S8, .i1⟩ : BufTy).Contents (Elt F)),
    nullary main_c_1 (constantI S_ 32 512#32),
    unary main_c_1 main_v4 (broadcastInDim S8 ![] bcast_S_S8 : (⟨S_, .i32⟩ : BufTy).Contents (Elt F) → (⟨S8, .i32⟩ : BufTy).Contents (Elt F)),
    binary main_v1 main_v4 main_v5 (addi : (⟨S8, .i32⟩ : BufTy).Contents (Elt F) → (⟨S8, .i32⟩ : BufTy).Contents (Elt F) → (⟨S8, .i32⟩ : BufTy).Contents (Elt F)),
    ternary main_v3 main_v5 main_v1 main_v6 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v6 main_v7 (broadcastInDim S8x1 ![0] bcast_S8_S8x1_0 : (⟨S8, .i32⟩ : BufTy).Contents (Elt F) → (⟨S8x1, .i32⟩ : BufTy).Contents (Elt F)) ]

/-- The last twelve: the gather at those positions, the cosines, the contraction and the bias. -/
def opsVal : List (HloOp τ sig (Elt F)) :=
  [
    binary main_arg0 main_v7 main_v8 ((fun x i => Host.gather gather_S16x4096x512_S8x1_S16x4096x8_01_2_n_n_2_1_1640961 x i) : (⟨S16x4096x512, .f32⟩ : BufTy).Contents (Elt F) → (⟨S8x1, .i32⟩ : BufTy).Contents (Elt F) → (⟨S16x4096x8, .f32⟩ : BufTy).Contents (Elt F)),
    unary main_v8 main_v9 (Host.cos : (⟨S16x4096x8, .f32⟩ : BufTy).Contents (Elt F) → (⟨S16x4096x8, .f32⟩ : BufTy).Contents (Elt F)),
    unary main_arg1 main_v10 ((extractStridedSlice S8x1 ![0, 0] · slices_S8x3_S8x1_0_0) : (⟨S8x3, .f32⟩ : BufTy).Contents (Elt F) → (⟨S8x1, .f32⟩ : BufTy).Contents (Elt F)),
    reshape main_v10 main_v11 rfl shapeCasts_S8x1_S8,
    unary main_v11 main_v12 (Host.cos : (⟨S8, .f32⟩ : BufTy).Contents (Elt F) → (⟨S8, .f32⟩ : BufTy).Contents (Elt F)),
    unary main_v12 main_v13 (broadcastInDim S1x1x8 ![2] bcast_S8_S1x1x8_2 : (⟨S8, .f32⟩ : BufTy).Contents (Elt F) → (⟨S1x1x8, .f32⟩ : BufTy).Contents (Elt F)),
    unary main_v13 main_v14 (broadcastInDim S16x4096x8 ![0, 1, 2] bcast_S1x1x8_S16x4096x8_0_1_2 : (⟨S1x1x8, .f32⟩ : BufTy).Contents (Elt F) → (⟨S16x4096x8, .f32⟩ : BufTy).Contents (Elt F)),
    binary main_v9 main_v14 main_v15 (mulf : (⟨S16x4096x8, .f32⟩ : BufTy).Contents (Elt F) → (⟨S16x4096x8, .f32⟩ : BufTy).Contents (Elt F) → (⟨S16x4096x8, .f32⟩ : BufTy).Contents (Elt F)),
    binary main_v15 main_arg2 main_v16 ((fun l r => Host.dotGeneral dot_S16x4096x8_S2048x8_S16x4096x2048_2_1_01_0_n_n none l r) : (⟨S16x4096x8, .f32⟩ : BufTy).Contents (Elt F) → (⟨S2048x8, .f32⟩ : BufTy).Contents (Elt F) → (⟨S16x4096x2048, .f32⟩ : BufTy).Contents (Elt F)),
    unary main_arg3 main_v17 (broadcastInDim S1x1x2048 ![2] bcast_S2048_S1x1x2048_2 : (⟨S2048, .f32⟩ : BufTy).Contents (Elt F) → (⟨S1x1x2048, .f32⟩ : BufTy).Contents (Elt F)),
    unary main_v17 main_v18 (broadcastInDim S16x4096x2048 ![0, 1, 2] bcast_S1x1x2048_S16x4096x2048_0_1_2 : (⟨S1x1x2048, .f32⟩ : BufTy).Contents (Elt F) → (⟨S16x4096x2048, .f32⟩ : BufTy).Contents (Elt F)),
    binary main_v16 main_v18 main_v19 (addf : (⟨S16x4096x2048, .f32⟩ : BufTy).Contents (Elt F) → (⟨S16x4096x2048, .f32⟩ : BufTy).Contents (Elt F) → (⟨S16x4096x2048, .f32⟩ : BufTy).Contents (Elt F)) ]

theorem ops_split : (ops : List (HloOp τ sig (Elt F))) = opsIdx ++ opsVal := rfl

/-- Running a concatenation is running its halves in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub .., unary_bufs_sub .., unary_bufs_sub .., unary_bufs_sub .., binary_bufs_sub .., binary_bufs_sub .., unary_bufs_sub .., unary_bufs_sub .., binary_bufs_sub ..⟩

/-- Every weakly fair execution terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  The reference's value.

  The reference program computes, for a token (b, s) and an output feature f,

      out[b, s, f] = Σ_{k < 8} (cos x[b, s, k] · cos params[k, 0]) · W[f, k] + bias[f],

  which is `Cert.Spec.whole` of its four arguments. Its straight line of operations falls into two halves.

  The first half is integer arithmetic with no input: the positions `arange 8 mod 512` (a floored remainder: the
  truncated one, corrected by the divisor where the signs differ and the remainder is not zero), negative positions
  wrapped by 512, laid out as an [8, 1] column. On the words 0 … 7 no correction fires, so row k of the column is the
  word k; each row is closed arithmetic on 32-bit words and is found by evaluation.

  The second half reads that column. The gather takes axes 0 and 1 of x whole and collapses axis 2 to the column
  named by the start index of row k, read signed and clamped to [0, 511]: at the word k < 8 that is column k, so the
  gathered array is x[b, s, k]. Its cosine is multiplied by the cosine of column 0 of the parameters (sliced,
  flattened, and broadcast over b and s), the product is contracted over k with W[f, k], and the bias, broadcast over
  b and s, is added. Read at an index (b, s, f) each of these operations is the corresponding scalar operation, and the
  sum over the one-axis contraction index is the sum over k < 8.

  None of the operations writes an argument, so the four arguments end as they began.
-/
import proofs.«148465_j65481071406287_1_alg».proof.Proof.RefRun
import proofs.«148465_j65481071406287_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The gather read at an index

The dimension numbers: offset axes 0 and 1 of the result are the operand's axes 0 and 1 taken whole, the operand's
axis 2 is collapsed to one column, and that column is the start index the result's axis 2 reads off the index array
(its index vector on axis 1, one component long). So result element (b, s, k) is the operand at (b, s, c), where c is
the start index at row k, read signed and clamped to the last column. -/

section Gather
variable {α : Type} {w : Nat}

theorem gather_apply (x : S16x4096x512.Idx → α) (idx : IVec S8x1 w) (b : Fin 16) (s : Fin 4096) (k : Fin 8) :
    Host.gather gather_S16x4096x512_S8x1_S16x4096x8_01_2_n_n_2_1_1640961 x idx (ix3 b s k)
      = x (ix3 b s (⟨min (idx (ix2 k (0 : Fin 1))).toInt.toNat 511, by omega⟩ : Fin 512)) := by
  unfold Host.gather
  congr 1
  funext a
  refine Fin.ext ?_
  have hb : ∀ a, gather_S16x4096x512_S8x1_S16x4096x8_01_2_n_n_2_1_1640961.batchCoord (ix3 b s k) a = 0 :=
    fun a => gather_S16x4096x512_S8x1_S16x4096x8_01_2_n_n_2_1_1640961.batchCoord_eq_zero _ a List.not_mem_nil
  match a with
  | ⟨0, _⟩ =>
    show gather_S16x4096x512_S8x1_S16x4096x8_01_2_n_n_2_1_1640961.start (ix3 b s k) idx (0 : Fin 3) + gather_S16x4096x512_S8x1_S16x4096x8_01_2_n_n_2_1_1640961.batchCoord (ix3 b s k) (0 : Fin 3)
      + gather_S16x4096x512_S8x1_S16x4096x8_01_2_n_n_2_1_1640961.offCoord (ix3 b s k) (0 : Fin 3) = b.val
    have h0 : gather_S16x4096x512_S8x1_S16x4096x8_01_2_n_n_2_1_1640961.start (ix3 b s k) idx (0 : Fin 3) = 0 := by
      unfold GatherDims.start; exact dif_neg (by decide)
    have h1 : gather_S16x4096x512_S8x1_S16x4096x8_01_2_n_n_2_1_1640961.offCoord (ix3 b s k) (0 : Fin 3) = b.val := by
      unfold GatherDims.offCoord; rw [dif_pos (by decide)]; rfl
    rw [h0, hb, h1]; omega
  | ⟨1, _⟩ =>
    show gather_S16x4096x512_S8x1_S16x4096x8_01_2_n_n_2_1_1640961.start (ix3 b s k) idx (1 : Fin 3) + gather_S16x4096x512_S8x1_S16x4096x8_01_2_n_n_2_1_1640961.batchCoord (ix3 b s k) (1 : Fin 3)
      + gather_S16x4096x512_S8x1_S16x4096x8_01_2_n_n_2_1_1640961.offCoord (ix3 b s k) (1 : Fin 3) = s.val
    have h0 : gather_S16x4096x512_S8x1_S16x4096x8_01_2_n_n_2_1_1640961.start (ix3 b s k) idx (1 : Fin 3) = 0 := by
      unfold GatherDims.start; exact dif_neg (by decide)
    have h1 : gather_S16x4096x512_S8x1_S16x4096x8_01_2_n_n_2_1_1640961.offCoord (ix3 b s k) (1 : Fin 3) = s.val := by
      unfold GatherDims.offCoord; rw [dif_pos (by decide)]; rfl
    rw [h0, hb, h1]; omega
  | ⟨2, _⟩ =>
    show gather_S16x4096x512_S8x1_S16x4096x8_01_2_n_n_2_1_1640961.start (ix3 b s k) idx (2 : Fin 3) + gather_S16x4096x512_S8x1_S16x4096x8_01_2_n_n_2_1_1640961.batchCoord (ix3 b s k) (2 : Fin 3)
      + gather_S16x4096x512_S8x1_S16x4096x8_01_2_n_n_2_1_1640961.offCoord (ix3 b s k) (2 : Fin 3) = min (idx (ix2 k (0 : Fin 1))).toInt.toNat 511
    have h1 : gather_S16x4096x512_S8x1_S16x4096x8_01_2_n_n_2_1_1640961.offCoord (ix3 b s k) (2 : Fin 3) = 0 :=
      gather_S16x4096x512_S8x1_S16x4096x8_01_2_n_n_2_1_1640961.offCoord_eq_zero _ _ (fun hm => ((gather_S16x4096x512_S8x1_S16x4096x8_01_2_n_n_2_1_1640961.mem_sKept _).mp hm).1 (by decide))
    have hm : (2 : Fin 3) ∈ gather_S16x4096x512_S8x1_S16x4096x8_01_2_n_n_2_1_1640961.startIndexMap := by decide
    have hs : gather_S16x4096x512_S8x1_S16x4096x8_01_2_n_n_2_1_1640961.start (ix3 b s k) idx (2 : Fin 3) = min (idx (ix2 k (0 : Fin 1))).toInt.toNat 511 := by
      unfold GatherDims.start
      rw [dif_pos hm]
      have hsi : gather_S16x4096x512_S8x1_S16x4096x8_01_2_n_n_2_1_1640961.siIdx (ix3 b s k) ⟨List.idxOf (2 : Fin 3) gather_S16x4096x512_S8x1_S16x4096x8_01_2_n_n_2_1_1640961.startIndexMap,
          List.idxOf_lt_length_iff.2 hm⟩ = ix2 k (0 : Fin 1) := by
        funext c; refine Fin.ext ?_
        match c with
        | ⟨0, _⟩ => rfl
        | ⟨1, _⟩ => rfl
      rw [hsi]
      rfl
    rw [hs, hb, h1]; omega

end Gather

/-! ## The contraction read at an index

One contracting axis of extent 8: axis 2 of the left operand against axis 1 of the right. The left operand is read
at (b, s, k), the right at (f, k), and the contraction index is its one coordinate k. -/

section Dot

/-- Contraction position `k < 8` as the one-axis contraction index. -/
abbrev cIdx (k : Fin 8) : dot_S16x4096x8_S2048x8_S16x4096x2048_2_1_01_0_n_n.contr.Idx := (contrEquiv1 dot_S16x4096x8_S2048x8_S16x4096x2048_2_1_01_0_n_n 8 rfl rfl).symm k

theorem dl_0 (j : S16x4096x2048.Idx) (k : dot_S16x4096x8_S2048x8_S16x4096x2048_2_1_01_0_n_n.contr.Idx) : ((dot_S16x4096x8_S2048x8_S16x4096x2048_2_1_01_0_n_n.lhsIdx j k) 0).val = (j 0).val := rfl
theorem dl_1 (j : S16x4096x2048.Idx) (k : dot_S16x4096x8_S2048x8_S16x4096x2048_2_1_01_0_n_n.contr.Idx) : ((dot_S16x4096x8_S2048x8_S16x4096x2048_2_1_01_0_n_n.lhsIdx j k) 1).val = (j 1).val := rfl
theorem dl_2 (j : S16x4096x2048.Idx) (k : dot_S16x4096x8_S2048x8_S16x4096x2048_2_1_01_0_n_n.contr.Idx) :
    ((dot_S16x4096x8_S2048x8_S16x4096x2048_2_1_01_0_n_n.lhsIdx j k) 2).val = (k ⟨0, by decide⟩).val := rfl
theorem dr_0 (j : S16x4096x2048.Idx) (k : dot_S16x4096x8_S2048x8_S16x4096x2048_2_1_01_0_n_n.contr.Idx) : ((dot_S16x4096x8_S2048x8_S16x4096x2048_2_1_01_0_n_n.rhsIdx j k) 0).val = (j 2).val := rfl
theorem dr_1 (j : S16x4096x2048.Idx) (k : dot_S16x4096x8_S2048x8_S16x4096x2048_2_1_01_0_n_n.contr.Idx) :
    ((dot_S16x4096x8_S2048x8_S16x4096x2048_2_1_01_0_n_n.rhsIdx j k) 1).val = (k ⟨0, by decide⟩).val := rfl

theorem dlhs_eq (b : Fin 16) (s : Fin 4096) (f : Fin 2048) (k : Fin 8) :
    dot_S16x4096x8_S2048x8_S16x4096x2048_2_1_01_0_n_n.lhsIdx (ix3 b s f) (cIdx k) = ix3 b s k := by
  funext a; refine Fin.ext ?_
  match a with
  | ⟨0, _⟩ => exact dl_0 _ _
  | ⟨1, _⟩ => exact dl_1 _ _
  | ⟨2, _⟩ => exact (dl_2 _ _).trans (contrEquiv1_symm_val dot_S16x4096x8_S2048x8_S16x4096x2048_2_1_01_0_n_n 8 rfl rfl k)

theorem drhs_eq (b : Fin 16) (s : Fin 4096) (f : Fin 2048) (k : Fin 8) :
    dot_S16x4096x8_S2048x8_S16x4096x2048_2_1_01_0_n_n.rhsIdx (ix3 b s f) (cIdx k) = ix2 f k :=
  Shape.idx_ext₂ (dr_0 _ _) ((dr_1 _ _).trans (contrEquiv1_symm_val dot_S16x4096x8_S2048x8_S16x4096x2048_2_1_01_0_n_n 8 rfl rfl k))

theorem dot_apply (l : FVec Ideal S16x4096x8 .f32) (r : FVec Ideal S2048x8 .f32) (b : Fin 16) (s : Fin 4096) (f : Fin 2048) :
    Host.dotGeneral dot_S16x4096x8_S2048x8_S16x4096x2048_2_1_01_0_n_n none l r (ix3 b s f) = ∑ k : Fin 8, l (ix3 b s k) * r (ix2 f k) := by
  simp only [Host.dotGeneral]
  rw [Ideal.dotGeneral_apply]
  refine (Equiv.sum_comp (contrEquiv1 dot_S16x4096x8_S2048x8_S16x4096x2048_2_1_01_0_n_n 8 rfl rfl).symm _).symm.trans ?_
  refine Finset.sum_congr rfl fun k _ => ?_
  rw [dlhs_eq, drhs_eq]

end Dot

/-! ## The angles, the broadcasts and the start column -/

section Pieces
variable {α : Type}

/-- Column 0 of the parameter array, flattened, under the cosine: entry k is cos p[k, 0]. -/
theorem angle_apply (p : FVec Ideal S8x3 .f32) (k : Fin 8) :
    Host.cos (shapeCast S8 (extractStridedSlice S8x1 ![0, 0] p slices_S8x3_S8x1_0_0) shapeCasts_S8x1_S8) (ix1 k)
      = Ideal.cos (p (ix2 k (0 : Fin 3))) := by
  show FloatOps.hostUnary .cos _ = _
  rw [Ideal.hostUnary_cos_def]
  congr 1
  rw [shapeCast_apply _ _ (ix1 k) (ix2 k (0 : Fin 1)) (by
    rw [Shape.rowMajor_val_two, Shape.rowMajor_val_one]; show k.val * 1 + 0 = k.val; omega)]
  exact extractStridedSlice_apply _ _ _ _ (ix2 k (0 : Fin 3)) (fun a => match a with
    | ⟨0, _⟩ => (Nat.zero_add _).symm
    | ⟨1, _⟩ => rfl)

/-- A vector of 8 broadcast to [1, 1, 8] and then to [16, 4096, 8] reads its entry k at (b, s, k). -/
theorem bcast8_apply (v : S8.Idx → α) (b : Fin 16) (s : Fin 4096) (k : Fin 8) :
    broadcastInDim S16x4096x8 ![0, 1, 2] bcast_S1x1x8_S16x4096x8_0_1_2
        (broadcastInDim S1x1x8 ![2] bcast_S8_S1x1x8_2 v) (ix3 b s k) = v (ix1 k) := by
  rw [broadcastInDim_apply _ _ _ (ix3 b s k) (ix3 (0 : Fin 1) (0 : Fin 1) k) (fun a => match a with
    | ⟨0, _⟩ => rfl
    | ⟨1, _⟩ => rfl
    | ⟨2, _⟩ => rfl)]
  exact broadcastInDim_apply _ _ _ _ (ix1 k) (fun a => match a with | ⟨0, _⟩ => rfl)

/-- A vector of 2048 broadcast to [1, 1, 2048] and then to [16, 4096, 2048] reads its entry f at (b, s, f). -/
theorem bcast2048_apply (v : S2048.Idx → α) (b : Fin 16) (s : Fin 4096) (f : Fin 2048) :
    broadcastInDim S16x4096x2048 ![0, 1, 2] bcast_S1x1x2048_S16x4096x2048_0_1_2
        (broadcastInDim S1x1x2048 ![2] bcast_S2048_S1x1x2048_2 v) (ix3 b s f) = v (ix1 f) := by
  rw [broadcastInDim_apply _ _ _ (ix3 b s f) (ix3 (0 : Fin 1) (0 : Fin 1) f) (fun a => match a with
    | ⟨0, _⟩ => rfl
    | ⟨1, _⟩ => rfl
    | ⟨2, _⟩ => rfl)]
  exact broadcastInDim_apply _ _ _ _ (ix1 f) (fun a => match a with | ⟨0, _⟩ => rfl)

/-- The word k < 8, read signed and clamped to the last of 512 columns, is column k. -/
theorem start_col (idx : IVec S8x1 32) (hidx : ∀ k : Fin 8, idx (ix2 k (0 : Fin 1)) = BitVec.ofNat 32 k.val) (k : Fin 8)
    (h : min (idx (ix2 k (0 : Fin 1))).toInt.toNat 511 < 512) :
    (⟨min (idx (ix2 k (0 : Fin 1))).toInt.toNat 511, h⟩ : Fin 512) = Cert.Spec.col k := by
  refine Fin.ext ?_
  show min (idx (ix2 k (0 : Fin 1))).toInt.toNat 511 = k.val
  rw [hidx k, Predicate.toInt_ofNat_small k.val (by have := k.isLt; omega), Int.toNat_natCast]
  have := k.isLt; omega

end Pieces

/-! ## The value part as a function of the arrays it reads -/

theorem value_eq (x : FVec Ideal S16x4096x512 .f32) (idx : IVec S8x1 32) (p : FVec Ideal S8x3 .f32)
    (W : FVec Ideal S2048x8 .f32) (bias : FVec Ideal S2048 .f32)
    (hidx : ∀ k : Fin 8, idx (ix2 k (0 : Fin 1)) = BitVec.ofNat 32 k.val) :
    addf
        (Host.dotGeneral dot_S16x4096x8_S2048x8_S16x4096x2048_2_1_01_0_n_n none
          (mulf (Host.cos (Host.gather gather_S16x4096x512_S8x1_S16x4096x8_01_2_n_n_2_1_1640961 x idx))
            (broadcastInDim S16x4096x8 ![0, 1, 2] bcast_S1x1x8_S16x4096x8_0_1_2
              (broadcastInDim S1x1x8 ![2] bcast_S8_S1x1x8_2
                (Host.cos (shapeCast S8 (extractStridedSlice S8x1 ![0, 0] p slices_S8x3_S8x1_0_0) shapeCasts_S8x1_S8)))))
          W)
        (broadcastInDim S16x4096x2048 ![0, 1, 2] bcast_S1x1x2048_S16x4096x2048_0_1_2
          (broadcastInDim S1x1x2048 ![2] bcast_S2048_S1x1x2048_2 bias))
      = Cert.Spec.whole x p W bias := by
  funext i
  obtain ⟨b, s, f, rfl⟩ : ∃ b s f, i = ix3 b s f := ⟨i 0, i 1, i 2, eq_ix3 i⟩
  rw [addf_apply, dot_apply, bcast2048_apply]
  show _ = (∑ k : Fin 8, (Ideal.cos (x (ix3 b s (Cert.Spec.col k))) * Ideal.cos (p (ix2 k (0 : Fin 3)))) * W (ix2 f k))
    + bias (ix1 f)
  congr 1
  refine Finset.sum_congr rfl fun k _ => ?_
  rw [mulf_apply, bcast8_apply, angle_apply]
  show FloatOps.hostUnary .cos (Host.gather gather_S16x4096x512_S8x1_S16x4096x8_01_2_n_n_2_1_1640961 x idx (ix3 b s k)) * _ * _ = _
  rw [Ideal.hostUnary_cos_def, gather_apply, start_col idx hidx k]

/-! ## The index half

The integer chain computes `arange 8 mod 512` with the sign corrections of a floored remainder, then wraps negative
positions by 512, and lays the eight words out as a column. On the words 0 … 7 every correction is vacuous: row k of
the column is the word k. The chain is closed arithmetic on 32-bit words, so each row is found by evaluation. -/

theorem idx_col (V : Valuation τ sig (Elt Ideal)) (k : Fin 8) :
    (after (opsIdx (F := Ideal)) V (main_v7 : DevRef τ sig) : IVec S8x1 32) (ix2 k (0 : Fin 1)) = BitVec.ofNat 32 k.val := by
  delta opsIdx
  after_results_simp
  fin_cases k <;> rfl

/-- The index half writes none of the four arguments. -/
theorem idx_kept0 (V : Valuation τ sig (Elt Ideal)) :
    after (opsIdx (F := Ideal)) V (main_arg0 : DevRef τ sig) = V (main_arg0 : DevRef τ sig) := by
  delta opsIdx; after_results_simp
theorem idx_kept1 (V : Valuation τ sig (Elt Ideal)) :
    after (opsIdx (F := Ideal)) V (main_arg1 : DevRef τ sig) = V (main_arg1 : DevRef τ sig) := by
  delta opsIdx; after_results_simp
theorem idx_kept2 (V : Valuation τ sig (Elt Ideal)) :
    after (opsIdx (F := Ideal)) V (main_arg2 : DevRef τ sig) = V (main_arg2 : DevRef τ sig) := by
  delta opsIdx; after_results_simp
theorem idx_kept3 (V : Valuation τ sig (Elt Ideal)) :
    after (opsIdx (F := Ideal)) V (main_arg3 : DevRef τ sig) = V (main_arg3 : DevRef τ sig) := by
  delta opsIdx; after_results_simp

/-! ## The value half, from any contents whose start column is 0 … 7 -/

theorem val_of (W : Valuation τ sig (Elt Ideal))
    (hidx : ∀ k : Fin 8, (W (main_v7 : DevRef τ sig) : IVec S8x1 32) (ix2 k (0 : Fin 1)) = BitVec.ofNat 32 k.val) :
    after (opsVal (F := Ideal)) W (main_v19 : DevRef τ sig)
      = Cert.Spec.whole (W (main_arg0 : DevRef τ sig)) (W (main_arg1 : DevRef τ sig)) (W (main_arg2 : DevRef τ sig))
          (W (main_arg3 : DevRef τ sig)) := by
  delta opsVal
  after_results_simp
  exact value_eq _ _ _ _ _ hidx

/-! ## The reference's result and its untouched arguments -/

theorem ref_value (V : Valuation τ sig (Elt Ideal)) :
    after ops V (main_v19 : DevRef τ sig)
      = Cert.Spec.whole (V (main_arg0 : DevRef τ sig)) (V (main_arg1 : DevRef τ sig)) (V (main_arg2 : DevRef τ sig))
          (V (main_arg3 : DevRef τ sig)) := by
  rw [ops_split, after_append, val_of _ (idx_col V), idx_kept0, idx_kept1, idx_kept2, idx_kept3]

theorem ref_kept0 (V : Valuation τ sig (Elt Ideal)) :
    after ops V (main_arg0 : DevRef τ sig) = V (main_arg0 : DevRef τ sig) := by
  after_results_simp
theorem ref_kept1 (V : Valuation τ sig (Elt Ideal)) :
    after ops V (main_arg1 : DevRef τ sig) = V (main_arg1 : DevRef τ sig) := by
  after_results_simp
theorem ref_kept2 (V : Valuation τ sig (Elt Ideal)) :
    after ops V (main_arg2 : DevRef τ sig) = V (main_arg2 : DevRef τ sig) := by
  after_results_simp
theorem ref_kept3 (V : Valuation τ sig (Elt Ideal)) :
    after ops V (main_arg3 : DevRef τ sig) = V (main_arg3 : DevRef τ sig) := by
  after_results_simp

end Cert.ReferenceIdeal.Hand

end
-- ==== Proof.lean ====
/-
  The kernel against its reference, over the extended reals.

  Both programs compute, for a token (b, s) and an output feature f,

      out[b, s, f] = Σ_{q < 8} (cos x[b, s, q] · cos params[q, 0]) · W[f, q] + bias[f].

  The kernel's program flattens the tokens, takes 512 rows per grid point, reads their first eight features, multiplies the
  cosines, contracts with the transposed weight on the matrix unit (its operands narrowed to bf16, which is the
  identity on the extended reals, into a zero accumulator) and adds the bias row; the reference gathers the feature
  columns `arange 8 mod 512` = 0 … 7, multiplies the cosines and contracts with the weight by `dot_general`. Both sums run
  over the same eight products in the same association, so no law beyond reading each side at an index is needed and
  the finiteness of the inputs is never used. `Cert.Spec.whole` is that function; `Cert.KernelIdeal.Hand.run` and
  `Cert.ReferenceIdeal.Hand.ref_value` say each program ends with it in its result buffer. The two frames of the kernel's
  programs are the generated ones; the reference's frame is its run with the result dropped; the ideal pass rewrote
  nothing, so the idealization claim is trivial.
-/
import proofs.«148465_j65481071406287_1_alg».proof.Defs
import proofs.«148465_j65481071406287_1_alg».proof.Proof.Gen.Kernel
import proofs.«148465_j65481071406287_1_alg».proof.Proof.Gen.Kernel.Skeleton
import proofs.«148465_j65481071406287_1_alg».proof.Proof.Gen.Kernel.Launch
import proofs.«148465_j65481071406287_1_alg».proof.Proof.Gen.Kernel.Points
import proofs.«148465_j65481071406287_1_alg».proof.Proof.Gen.Kernel.Frame
import proofs.«148465_j65481071406287_1_alg».proof.Proof.Gen.KernelIdeal
import proofs.«148465_j65481071406287_1_alg».proof.Proof.Gen.KernelIdeal.Skeleton
import proofs.«148465_j65481071406287_1_alg».proof.Proof.Gen.KernelIdeal.Launch
import proofs.«148465_j65481071406287_1_alg».proof.Proof.Gen.KernelIdeal.Points
import proofs.«148465_j65481071406287_1_alg».proof.Proof.Gen.KernelIdeal.Frame
import proofs.«148465_j65481071406287_1_alg».proof.Proof.Gen.ReferenceIdeal
import proofs.«148465_j65481071406287_1_alg».proof.Proof.Gen.Pre_finite_inputs
import proofs.«148465_j65481071406287_1_alg».proof.Proof.KernelRun
import proofs.«148465_j65481071406287_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments as launched: its run, the result dropped. -/
theorem frame_ri : Cert.frame_ReferenceIdeal := fun m ρ _ =>
  (θ_run Cert.ReferenceIdeal.defs _ _).mono (fun _ h c =>
      ⟨(h c Cert.ReferenceIdeal.main_arg0).trans (Cert.ReferenceIdeal.Hand.ref_kept0 _),
       (h c Cert.ReferenceIdeal.main_arg1).trans (Cert.ReferenceIdeal.Hand.ref_kept1 _),
       (h c Cert.ReferenceIdeal.main_arg2).trans (Cert.ReferenceIdeal.Hand.ref_kept2 _),
       (h c Cert.ReferenceIdeal.main_arg3).trans (Cert.ReferenceIdeal.Hand.ref_kept3 _)⟩)
    (Cert.ReferenceIdeal.Hand.run_fold (F := Ideal) m ρ)

/-- From memories that agree on the arguments both programs end with `Cert.Spec.whole` of the arguments in their result
    buffers. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ?_) (Cert.ReferenceIdeal.Hand.run_fold (F := Ideal) m' ρ')
  obtain ⟨e0, e1, e2, e3⟩ := hagree c
  refine ⟨((h c Cert.ReferenceIdeal.main_v19).trans (Cert.ReferenceIdeal.Hand.ref_value _)).trans ?_,
    (h c Cert.ReferenceIdeal.main_arg0).trans (Cert.ReferenceIdeal.Hand.ref_kept0 _),
    (h c Cert.ReferenceIdeal.main_arg1).trans (Cert.ReferenceIdeal.Hand.ref_kept1 _),
    (h c Cert.ReferenceIdeal.main_arg2).trans (Cert.ReferenceIdeal.Hand.ref_kept2 _),
    (h c Cert.ReferenceIdeal.main_arg3).trans (Cert.ReferenceIdeal.Hand.ref_kept3 _)⟩
  beta_reduce
  rw [← e0, ← e1, ← e2, ← e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
